-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S1x1 : Shape := ⟨2, ![1, 1]⟩

abbrev nBuf : Space → Nat
  | .hbm => 116
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .bf16⟩
  | .hbm, ⟨46, _⟩ => ⟨S128x128, .bf16⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .bf16⟩
  | .hbm, ⟨71, _⟩ => ⟨S128x64, .bf16⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S64x64, .f32⟩
  | .hbm, ⟨97, _⟩ => ⟨S100000x1, .i32⟩
  | .hbm, ⟨98, _⟩ => ⟨S64x64, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S64, .f32⟩
  | .hbm, ⟨103, _⟩ => ⟨S100000x1, .i32⟩
  | .hbm, ⟨104, _⟩ => ⟨S64, .f32⟩
  | .hbm, ⟨105, _⟩ => ⟨S_, .f32⟩
  | .hbm, ⟨106, _⟩ => ⟨S64, .f32⟩
  | .hbm, ⟨107, _⟩ => ⟨S64, .f32⟩
  | .hbm, ⟨108, _⟩ => ⟨S64x1, .f32⟩
  | .hbm, ⟨109, _⟩ => ⟨S64x64, .f32⟩
  | .hbm, ⟨110, _⟩ => ⟨S64x64, .f32⟩
  | .hbm, ⟨111, _⟩ => ⟨S64x1, .f32⟩
  | .hbm, ⟨112, _⟩ => ⟨S1x1, .f32⟩
  | .hbm, ⟨113, _⟩ => ⟨S64x1, .f32⟩
  | .hbm, ⟨114, _⟩ => ⟨S64x1, .f32⟩
  | .hbm, ⟨115, _⟩ => ⟨S64, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S128x64, .bf16⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_cst : Ref sig .tc := ⟨.hbm, 92, rfl⟩
abbrev main_call1_v0 : Ref sig .tc := ⟨.hbm, 93, rfl⟩
abbrev main_v68 : Ref sig .tc := ⟨.hbm, 94, rfl⟩
abbrev main_cst_11 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v29) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S64x64, .f32⟩
  | .hbm, ⟨93, _⟩ => ⟨S100000x1, .i32⟩
  | .hbm, ⟨94, _⟩ => ⟨S64x64, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S64, .f32⟩
  | .hbm, ⟨99, _⟩ => ⟨S100000x1, .i32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x64, .f32⟩
  | .hbm, ⟨106, _⟩ => ⟨S64x64, .f32⟩
  | .hbm, ⟨107, _⟩ => ⟨S64x1, .f32⟩
  | .hbm, ⟨108, _⟩ => ⟨S1x1, .f32⟩
  | .hbm, ⟨109, _⟩ => ⟨S64x1, .f32⟩
  | .hbm, ⟨110, _⟩ => ⟨S64x1, .f32⟩
  | .hbm, ⟨111, _⟩ => ⟨S64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.LibMatmulRows.lean ====
/-
  A rows-by-columns product computed one block of rows at a time is the whole product: general reading lemmas, over any
  extents, for the chip's matrix product into a zero accumulator and the host's `dot_general`, both of the plain
  `[M, K] × [K, N]` kind, at the ideal values.
-/
import Idealize.ShloMosaic.Lib.ValueIdx
import Idealize.ShloMosaic.PureOps.Ideal.Laws
import proofs.«167416_j76630806496038_1_alg».proof.Proof.LibLayout

noncomputable section

namespace Cert.LibMatmulRows

open Idealize.ShloMosaic Idealize.ShloMosaic.ValueIdx

/-- The chip's product into a zero accumulator and the host's product are, at the ideal values and at every index, the
    same sum over the contracted index set: one function of the operands. -/
theorem matmul_zero_eq_dotGeneral {sl sr so : Shape} {φ₁ φ₂ : FTy} (d : DotDims sl sr so) (prec prec' : Option ContractPrecision)
    (sched : HostSchedule) (A : FVec Ideal sl φ₁) (B : FVec Ideal sr φ₂) :
    FloatOps.matmul d prec A B (constant so .f32 0x00000000#32) = FloatOps.dotGeneral d prec' sched A B := by
  funext j
  rw [Ideal.matmul_constant_zero_apply, Ideal.dotGeneral_apply]

/-- The chip's plain product into a zero accumulator, read at `(a, b)`: `∑ c, A[a, c] · B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [matmul_zero_eq_dotGeneral (DotDims.plain m k n) prec prec .single A B]
  exact Cert.LibLayout.dotGeneral_plain_apply prec .single A B a b

/-- ROWS OF A PRODUCT. If row `r` of `Ab` is row `r'` of `A` and `Bb` is `B`, the chip's product of `Ab` with `Bb` into a
    zero accumulator is, at row `r`, the host's whole product of `A` with `B` at row `r'`: each entry of a product
    depends on one row of the left operand only. -/
theorem matmul_rows_eq_dotGeneral {M K N R : Nat} {φ₁ φ₂ ψ₁ ψ₂ : FTy} (prec prec' : Option ContractPrecision) (sched : HostSchedule)
    (A : FVec Ideal ⟨2, ![M, K]⟩ φ₁) (B : FVec Ideal ⟨2, ![K, N]⟩ φ₂)
    (Ab : FVec Ideal ⟨2, ![R, K]⟩ ψ₁) (Bb : FVec Ideal ⟨2, ![K, N]⟩ ψ₂)
    (r : Fin R) (r' : Fin M)
    (hA : ∀ c : Fin K, (Ab (ix2 r c) : EReal) = A (ix2 r' c)) (hB : ∀ (c : Fin K) (b : Fin N), (Bb (ix2 c b) : EReal) = B (ix2 c b))
    (b : Fin N) :
    FloatOps.matmul (DotDims.plain R K N) prec Ab Bb (constant ⟨2, ![R, N]⟩ .f32 0x00000000#32) (ix2 r b)
      = FloatOps.dotGeneral (DotDims.plain M K N) prec' sched A B (ix2 r' b) := by
  rw [matmul_plain_zero_apply, Cert.LibLayout.dotGeneral_plain_apply]
  exact Finset.sum_congr rfl fun c _ => by rw [hA c, hB c b]

end Cert.LibMatmulRows

end
-- ==== Proof.RegionRows.lean ====
/-
  What each of the two row-tiled matrix products leaves in its result array, at the ideal values.

  Each region walks ten grid points; at point `t` it reads rows `10000·t … 10000·t + 9999` of its left operand and the
  whole right operand, multiplies them into a zero accumulator and writes the product back as the same rows of the result.
  An entry of a product depends on one row of the left operand only, so the rows written at point `t` are those rows of the
  whole product; the ten blocks tile the result, hence the result array ends as the whole product of the two operand arrays
  as the region finds them.
-/
import proofs.«167416_j76630806496038_1_alg».proof.Proof.Gen.KernelIdeal.Frame
import proofs.«167416_j76630806496038_1_alg».proof.Proof.LibMatmulRows
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.LibMatmulRows

-- the buffer contents when a region is entered
variable (V : (c : Dev nD) → (b : Ref sig .tc) → Buf (Elt Ideal) ((c : Thread nD τ).loc b))

theorem zero_offsets : (![0, 0] : Fin 2 → Nat) = fun _ => 0 := funext fun a => by fin_cases a <;> rfl

/-! ## The first product: `[100000, 128] × [128, 128]` -/

/-- Where the blocks sit: at point `t` the left operand's and the result's block is block `t` along the rows, the right
    operand's block is the whole array. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product of a block of rows, read at an entry, is the whole product's entry at the row the block's row comes from. -/
theorem product0_apply (xb : Vec Ideal S10000x128 .bf16) (wb : Vec Ideal S128x128 .bf16)
    (X : FVec Ideal S100000x128 .f32) (W : FVec Ideal S128x128 .f32) (p : Fin 10000) (q : Fin 128) (p' : Fin 100000)
    (hx : ∀ k : Fin 128, (xb (ix2 p k) : EReal) = X (ix2 p' k))
    (hw : ∀ (k : Fin 128) (n : Fin 128), (wb (ix2 k n) : EReal) = W (ix2 k n)) :
    k0_pay1 xb wb (ix2 p q)
      = Host.dotGeneral (φ₁ := .f32) (φ₂ := .f32) (DotDims.plain 100000 128 128) none X W (ix2 p' q) := by
  unfold k0_pay1
  simp only [shapeCast_self]
  exact matmul_rows_eq_dotGeneral none none .single X W xb wb p p' hx hw q

/-- The whole product of the two operand arrays as the region finds them. -/
def whole0 (c : Dev nD) : FVec Ideal S100000x128 .f32 :=
  Host.dotGeneral (φ₁ := .f32) (φ₂ := .f32) (DotDims.plain 100000 128 128) none (V c main_v29) (V c main_v30)

/-- The left operand's block at point `t` is rows `10000·t …` of its array. -/
theorem left_block0 (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .bf16) y = (V c main_v29 : Vec Ideal S100000x128 .bf16) i := by
  obtain ⟨e0, e1, e2, e3, e4, e5⟩ := block_index0 t
  unfold iblk0
  rw [View.read_apply]
  show V c main_v29 _ = V c main_v29 _
  congr 1
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega

/-- The right operand's block at every point is its whole array. -/
theorem right_block0 (c : Dev nD) (t : Fin cfg0.N) (y : S128x128.Idx) :
    (iblk0 V c 1 t : Vec Ideal S128x128 .bf16) y = (V c main_v30 : Vec Ideal S128x128 .bf16) y := by
  obtain ⟨e0, e1, e2, e3, e4, e5⟩ := block_index0 t
  unfold iblk0
  rw [View.read_apply]
  show V c main_v30 _ = V c main_v30 _
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- What point `t` writes back is block `t` of the whole product. -/
theorem written0 (c : Dev nD) (t : Fin cfg0.N) :
    (dat0 V c).flushed 2 t = ((cfg0.win 2).blk t).view.read (Elt Ideal) (whole0 V c) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  funext j
  obtain ⟨e0, e1, e2, e3, e4, e5⟩ := block_index0 t
  show k0_pay1 (iblk0 V c 0 t) (iblk0 V c 1 t) ((win0 2).xinj (grid0.coords t) j) = whole0 V c (((cfg0.win 2).blk t).view.emb j)
  obtain ⟨p, q, hpq⟩ : ∃ (p : Fin 10000) (q : Fin 128), (win0 2).xinj (grid0.coords t) j = ix2 p q := ⟨_, _, eq_ix2 _⟩
  obtain ⟨p', q', hpq'⟩ : ∃ (p' : Fin 100000) (q' : Fin 128), ((cfg0.win 2).blk t).view.emb j = ix2 p' q' := ⟨_, _, eq_ix2 _⟩
  -- the entry's row in the array is the block's first row plus its row in the block; its column is the same
  have hp : p'.val = t.val * 10000 + p.val := by
    have h1 : ((((cfg0.win 2).blk t).view.emb j) 0).val = p'.val := congrArg (fun f => (f 0).val) hpq'
    have h2 : (((win0 2).xinj (grid0.coords t) j) 0).val = p.val := congrArg (fun f => (f 0).val) hpq
    have h3 : ((((cfg0.win 2).blk t).view.emb j) 0).val = win0_2.index t 0 * 10000 + 1 * (j 0).val := rfl
    have h4 : (((win0 2).xinj (grid0.coords t) j) 0).val = (j 0).val := rfl
    omega
  have hq : q' = q := by
    apply Fin.ext
    have h1 : ((((cfg0.win 2).blk t).view.emb j) 1).val = q'.val := congrArg (fun f => (f 1).val) hpq'
    have h2 : (((win0 2).xinj (grid0.coords t) j) 1).val = q.val := congrArg (fun f => (f 1).val) hpq
    have h3 : ((((cfg0.win 2).blk t).view.emb j) 1).val = win0_2.index t 1 * 128 + 1 * (j 1).val := rfl
    have h4 : (((win0 2).xinj (grid0.coords t) j) 1).val = (j 1).val := rfl
    omega
  rw [hpq, hpq', hq]
  unfold whole0
  exact product0_apply _ _ _ _ p q p' (fun k => left_block0 V c t (ix2 p k) (ix2 p' k) hp rfl) (fun k n => right_block0 V c t (ix2 k n))

/-- An index of the result lies in point `t`'s block iff each coordinate is in the block's range on its axis. -/
theorem mem_block0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Every index of the result is in the block of the point its row falls in. -/
theorem covered0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e0, e1, e2, e3, e4, e5⟩ := block_index0 t
  have ht : t.val = (i 0).val / 10000 := rfl
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 128 ≤ (i 1).val ∧ (i 1).val < win0_2.index t (1 : Fin 2) * 128 + 128; rw [e5]; omega

/-- THE RESULT ARRAY of the first region after its ten points: the whole product. -/
theorem result0 (c : Dev nD) : (dat0 V c).arrAt 2 cfg0.N = whole0 V c :=
  (dat0 V c).arrAt_eq_of_cover 2 (whole0 V c) (fun t _ => written0 V c t) covered0

/-! ## The second product: `[100000, 128] × [128, 64]` -/

/-- Where the blocks sit, as in the first region. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's product of a block of rows, read at an entry, is the whole product's entry at the row the block's row comes from. -/
theorem product1_apply (xb : Vec Ideal S10000x128 .bf16) (wb : Vec Ideal S128x64 .bf16)
    (X : FVec Ideal S100000x128 .f32) (W : FVec Ideal S128x64 .f32) (p : Fin 10000) (q : Fin 64) (p' : Fin 100000)
    (hx : ∀ k : Fin 128, (xb (ix2 p k) : EReal) = X (ix2 p' k))
    (hw : ∀ (k : Fin 128) (n : Fin 64), (wb (ix2 k n) : EReal) = W (ix2 k n)) :
    k1_pay1 xb wb (ix2 p q)
      = Host.dotGeneral (φ₁ := .f32) (φ₂ := .f32) (DotDims.plain 100000 128 64) none X W (ix2 p' q) := by
  unfold k1_pay1
  simp only [shapeCast_self]
  exact matmul_rows_eq_dotGeneral none none .single X W xb wb p p' hx hw q

/-- The whole product of the two operand arrays as the region finds them. -/
def whole1 (c : Dev nD) : FVec Ideal S100000x64 .f32 :=
  Host.dotGeneral (φ₁ := .f32) (φ₂ := .f32) (DotDims.plain 100000 128 64) none (V c main_v49) (V c main_v50)

/-- The left operand's block at point `t` is rows `10000·t …` of its array. -/
theorem left_block1 (c : Dev nD) (t : Fin cfg1.N) (y : S10000x128.Idx) (i : S100000x128.Idx)
    (h0 : (i 0).val = t.val * 10000 + (y 0).val) (h1 : (i 1).val = (y 1).val) :
    (iblk1 V c 0 t : Vec Ideal S10000x128 .bf16) y = (V c main_v49 : Vec Ideal S100000x128 .bf16) i := by
  obtain ⟨e0, e1, e2, e3, e4, e5⟩ := block_index1 t
  unfold iblk1
  rw [View.read_apply]
  show V c main_v49 _ = V c main_v49 _
  congr 1
  funext a
  apply Fin.ext
  match a with
  | ⟨0, _⟩ => show win1_0.index t 0 * 10000 + 1 * (y 0).val = (i 0).val; rw [e0, h0]; omega
  | ⟨1, _⟩ => show win1_0.index t 1 * 128 + 1 * (y 1).val = (i 1).val; rw [e1, h1]; omega

/-- The right operand's block at every point is its whole array. -/
theorem right_block1 (c : Dev nD) (t : Fin cfg1.N) (y : S128x64.Idx) :
    (iblk1 V c 1 t : Vec Ideal S128x64 .bf16) y = (V c main_v50 : Vec Ideal S128x64 .bf16) y := by
  obtain ⟨e0, e1, e2, e3, e4, e5⟩ := block_index1 t
  unfold iblk1
  rw [View.read_apply]
  show V c main_v50 _ = V c main_v50 _
  congr 1
  funext a
  apply Fin.ext
  match a with
  | ⟨0, _⟩ => show win1_1.index t 0 * 128 + 1 * (y 0).val = (y 0).val; rw [e2]; omega
  | ⟨1, _⟩ => show win1_1.index t 1 * 64 + 1 * (y 1).val = (y 1).val; rw [e3]; omega

/-- What point `t` writes back is block `t` of the whole product. -/
theorem written1 (c : Dev nD) (t : Fin cfg1.N) :
    (dat1 V c).flushed 2 t = ((cfg1.win 2).blk t).view.read (Elt Ideal) (whole1 V c) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S128x64) zero_offsets]
  funext j
  obtain ⟨e0, e1, e2, e3, e4, e5⟩ := block_index1 t
  show k1_pay1 (iblk1 V c 0 t) (iblk1 V c 1 t) ((win1 2).xinj (grid1.coords t) j) = whole1 V c (((cfg1.win 2).blk t).view.emb j)
  obtain ⟨p, q, hpq⟩ : ∃ (p : Fin 10000) (q : Fin 64), (win1 2).xinj (grid1.coords t) j = ix2 p q := ⟨_, _, eq_ix2 _⟩
  obtain ⟨p', q', hpq'⟩ : ∃ (p' : Fin 100000) (q' : Fin 64), ((cfg1.win 2).blk t).view.emb j = ix2 p' q' := ⟨_, _, eq_ix2 _⟩
  -- the entry's row in the array is the block's first row plus its row in the block; its column is the same
  have hp : p'.val = t.val * 10000 + p.val := by
    have h1 : ((((cfg1.win 2).blk t).view.emb j) 0).val = p'.val := congrArg (fun f => (f 0).val) hpq'
    have h2 : (((win1 2).xinj (grid1.coords t) j) 0).val = p.val := congrArg (fun f => (f 0).val) hpq
    have h3 : ((((cfg1.win 2).blk t).view.emb j) 0).val = win1_2.index t 0 * 10000 + 1 * (j 0).val := rfl
    have h4 : (((win1 2).xinj (grid1.coords t) j) 0).val = (j 0).val := rfl
    omega
  have hq : q' = q := by
    apply Fin.ext
    have h1 : ((((cfg1.win 2).blk t).view.emb j) 1).val = q'.val := congrArg (fun f => (f 1).val) hpq'
    have h2 : (((win1 2).xinj (grid1.coords t) j) 1).val = q.val := congrArg (fun f => (f 1).val) hpq
    have h3 : ((((cfg1.win 2).blk t).view.emb j) 1).val = win1_2.index t 1 * 64 + 1 * (j 1).val := rfl
    have h4 : (((win1 2).xinj (grid1.coords t) j) 1).val = (j 1).val := rfl
    omega
  rw [hpq, hpq', hq]
  unfold whole1
  exact product1_apply _ _ _ _ p q p' (fun k => left_block1 V c t (ix2 p k) (ix2 p' k) hp rfl) (fun k n => right_block1 V c t (ix2 k n))

/-- An index of the result lies in point `t`'s block iff each coordinate is in the block's range on its axis. -/
theorem mem_block1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v51).slice (win1_2.rect t)).set ↔ _
  rw [View.set_slice_whole, Rect.mem_set_unit]
  exact Iff.rfl

/-- Every index of the result is in the block of the point its row falls in. -/
theorem covered1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e0, e1, e2, e3, e4, e5⟩ := block_index1 t
  have ht : t.val = (i 0).val / 10000 := rfl
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 64 ≤ (i 1).val ∧ (i 1).val < win1_2.index t (1 : Fin 2) * 64 + 64; rw [e5]; omega

/-- THE RESULT ARRAY of the second region after its ten points: the whole product. -/
theorem result1 (c : Dev nD) : (dat1 V c).arrAt 2 cfg1.N = whole1 V c :=
  (dat1 V c).arrAt_eq_of_cover 2 (whole1 V c) (fun t _ => written1 V c t) covered1

end Cert.KernelIdeal.Rows

end
-- ==== Proof.KernelValue.lean ====
/-
  The idealized kernel program's result as a function of its arguments.

  @main is: host operations (the self-loops joined to the edge list, the degrees, the edge weights); the first row-tiled
  product; host operations (gather the product's rows along the edges, weight, scatter-add into the target nodes, add the
  bias, clamp at zero); the second row-tiled product; the same host operations again; the mean over each graph and the final
  linear layer. The reference program is the same chain with the host's `dot_general` where the kernel program has a region.
  Each stretch of host operations is read back over the buffer contents it starts from; a region's result array is the
  whole product (the row-tiling lemmas); a change of float format is the identity at the ideal values. Stage by stage the
  buffers hold what the reference's stage functions give at the same arguments.
-/
import proofs.«167416_j76630806496038_1_alg».proof.Proof.Gen.KernelIdeal.Frame
import proofs.«167416_j76630806496038_1_alg».proof.Proof.Gen.ReferenceIdeal.Read
import proofs.«167416_j76630806496038_1_alg».proof.Proof.RegionRows
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stages

open Cert.KernelIdeal Cert.KernelIdeal.Gen
open Cert.ReferenceIdeal.Read (val_main_v3 val_main_v6 val_main_v28 val_main_v29 val_main_v45 val_main_v46 val_main_v47 val_main_v63 val_main_v64 val_main_v81)

variable (m : (ℓ : Loc nD τ sig) → Buf (Elt Ideal) ℓ) (ρ : Dev nD → PrngReg)

/-! ## The arguments as launched -/

abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)
abbrev x6 (c : Dev nD) := m ((c : Thread nD τ).loc main_arg6)
abbrev x7 (c : Dev nD) := m ((c : Thread nD τ).loc main_arg7)
abbrev x8 (c : Dev nD) := m ((c : Thread nD τ).loc main_arg8)

/-! ## Before the first region -/

/-- What the first stretch leaves of the graph: the source and the target end of every edge (self-loops appended) and every
    edge's weight, the product of its two ends' inverse root degrees. -/
theorem graph (c : Dev nD) :
    W1 m ρ c (Proc.devRef .tc main_v3) = val_main_v3 (F := Ideal) (x1 m c)
    ∧ W1 m ρ c (Proc.devRef .tc main_v6) = val_main_v6 (F := Ideal) (x1 m c)
    ∧ W1 m ρ c (Proc.devRef .tc main_v28) = val_main_v28 (F := Ideal) (x1 m c) := by
  refine ⟨?_, ?_, ?_⟩ <;>
    (show StableHlo.after hostOps0 (W0 m ρ c) _ = _
     simp only [hostOps0]
     after_results_simp
     rfl)

/-- The first region's operands are the node features and the first weight matrix: the change of format is the identity. -/
theorem first_operands (c : Dev nD) :
    (V1 m ρ c main_v29 : S100000x128.Idx → EReal) = x0 m c ∧ (V1 m ρ c main_v30 : S128x128.Idx → EReal) = x3 m c := by
  refine ⟨?_, ?_⟩ <;>
    (show StableHlo.after hostOps0 (W0 m ρ c) _ = _
     simp only [hostOps0]
     after_results_simp
     rfl)

/-- No operation of the first stretch writes an argument. -/
theorem launched (c : Dev nD) :
    W1 m ρ c (Proc.devRef .tc main_arg2) = x2 m c ∧ W1 m ρ c (Proc.devRef .tc main_arg4) = x4 m c
    ∧ W1 m ρ c (Proc.devRef .tc main_arg5) = x5 m c ∧ W1 m ρ c (Proc.devRef .tc main_arg6) = x6 m c
    ∧ W1 m ρ c (Proc.devRef .tc main_arg7) = x7 m c ∧ W1 m ρ c (Proc.devRef .tc main_arg8) = x8 m c := by
  refine ⟨?_, ?_, ?_, ?_, ?_, ?_⟩ <;>
    (show StableHlo.after hostOps0 (W0 m ρ c) _ = _
     simp only [hostOps0]
     after_results_simp)

/-! ## The first region -/

/-- The first region leaves the whole product of the node features and the first weight matrix. -/
theorem first_product (c : Dev nD) :
    W2 m ρ c (Proc.devRef .tc main_v31) = val_main_v29 (F := Ideal) (x0 m c) (x3 m c) := by
  show W2 m ρ c (Proc.devRef .tc (Pipeline.arrRef spec0 2)) = _
  rw [W2_arr, Cert.KernelIdeal.Rows.result0]
  unfold Cert.KernelIdeal.Rows.whole0
  rw [(first_operands m ρ c).1, (first_operands m ρ c).2]
  rfl

/-! ## Between the regions -/

/-- A call of the clamp at zero, read back over any buffer contents: the maximum of its operand and zero. -/
theorem clamp_first (U : Valuation τ sig (Elt Ideal)) :
    (StableHlo.after hostOps1_1 U (Proc.devRef .tc main_v48) : FVec Ideal S100000x128 .f32)
      = maximumf (F := Ideal) (U (Proc.devRef .tc main_v47) : FVec Ideal S100000x128 .f32)
          (broadcastInDim S100000x128 ![] bcast_S_S100000x128 (constant (F := Ideal) S_ .f32 0x00000000#32)) := by
  simp only [hostOps1_1]
  after_results_simp
  rfl

/-- The first layer before the clamp: the product's rows gathered along the edges, weighted, scatter-added into the target
    nodes, and the bias added. -/
theorem first_sum (c : Dev nD) :
    W3 m ρ c (Proc.devRef .tc main_v47) = val_main_v45 (F := Ideal) (x0 m c) (x1 m c) (x3 m c) (x4 m c) := by
  show StableHlo.after hostOps1 (W2 m ρ c) (Proc.devRef .tc main_v47) = _
  simp only [hostOps1]
  after_results_simp
  rw [first_product m ρ c, W2_of_ne m ρ c main_v3 (by decide), W2_of_ne m ρ c main_v6 (by decide), W2_of_ne m ρ c main_v28 (by decide),
    W2_of_ne m ρ c main_arg4 (by decide), (graph m ρ c).1, (graph m ρ c).2.1, (graph m ρ c).2.2, (launched m ρ c).2.1]
  rfl

/-- The first layer's output: that sum clamped at zero. -/
theorem first_layer (c : Dev nD) :
    W4 m ρ c (Proc.devRef .tc main_v48) = val_main_v46 (F := Ideal) (x0 m c) (x1 m c) (x3 m c) (x4 m c) := by
  show StableHlo.after hostOps1_1 (W3 m ρ c) (Proc.devRef .tc main_v48) = _
  rw [clamp_first, first_sum]
  rfl

/-- The change of format before the second region, read back over any buffer contents: the identity. -/
theorem format_second (U : Valuation τ sig (Elt Ideal)) :
    (StableHlo.after hostOps1_2 U (Proc.devRef .tc main_v49) : S100000x128.Idx → EReal) = U (Proc.devRef .tc main_v48) := by
  simp only [hostOps1_2]
  after_results_simp
  rfl

/-- The second region's left operand is the first layer's output. -/
theorem second_left (c : Dev nD) :
    (V5 m ρ c main_v49 : S100000x128.Idx → EReal) = val_main_v46 (F := Ideal) (x0 m c) (x1 m c) (x3 m c) (x4 m c) := by
  show (StableHlo.after hostOps1_2 (W4 m ρ c) (Proc.devRef .tc main_v49) : S100000x128.Idx → EReal) = _
  rw [format_second]
  exact first_layer m ρ c

/-- The second region's right operand is the second weight matrix. -/
theorem second_right (c : Dev nD) : (V5 m ρ c main_v50 : S128x64.Idx → EReal) = x5 m c := by
  show (StableHlo.after hostOps1_2 (StableHlo.after hostOps1_1 (StableHlo.after hostOps1 (W2 m ρ c))) (Proc.devRef .tc main_v50) : S128x64.Idx → EReal) = _
  simp only [hostOps1_2, hostOps1_1, hostOps1]
  after_results_simp
  rw [W2_of_ne m ρ c main_arg5 (by decide), (launched m ρ c).2.2.1]
  rfl

/-- Neither the first region nor the operations up to the second region write the graph's buffers or the arguments the
    rest of the program reads: at the second region's entry they hold what the first stretch left. -/
theorem carried (c : Dev nD) :
    W5 m ρ c (Proc.devRef .tc main_v3) = val_main_v3 (F := Ideal) (x1 m c)
    ∧ W5 m ρ c (Proc.devRef .tc main_v6) = val_main_v6 (F := Ideal) (x1 m c)
    ∧ W5 m ρ c (Proc.devRef .tc main_v28) = val_main_v28 (F := Ideal) (x1 m c)
    ∧ W5 m ρ c (Proc.devRef .tc main_arg2) = x2 m c
    ∧ W5 m ρ c (Proc.devRef .tc main_arg6) = x6 m c
    ∧ W5 m ρ c (Proc.devRef .tc main_arg7) = x7 m c
    ∧ W5 m ρ c (Proc.devRef .tc main_arg8) = x8 m c := by
  obtain ⟨g3, g6, g28⟩ := graph m ρ c
  obtain ⟨l2, l4, l5, l6, l7, l8⟩ := launched m ρ c
  refine ⟨?_, ?_, ?_, ?_, ?_, ?_, ?_⟩ <;>
    (show StableHlo.after hostOps1_2 (StableHlo.after hostOps1_1 (StableHlo.after hostOps1 (W2 m ρ c))) _ = _
     simp only [hostOps1_2, hostOps1_1, hostOps1]
     after_results_simp)
  · exact (W2_of_ne m ρ c main_v3 (by decide)).trans g3
  · exact (W2_of_ne m ρ c main_v6 (by decide)).trans g6
  · exact (W2_of_ne m ρ c main_v28 (by decide)).trans g28
  · exact (W2_of_ne m ρ c main_arg2 (by decide)).trans l2
  · exact (W2_of_ne m ρ c main_arg6 (by decide)).trans l6
  · exact (W2_of_ne m ρ c main_arg7 (by decide)).trans l7
  · exact (W2_of_ne m ρ c main_arg8 (by decide)).trans l8

/-! ## The second region -/

/-- The second region leaves the whole product of the first layer's output and the second weight matrix. -/
theorem second_product (c : Dev nD) :
    W6 m ρ c (Proc.devRef .tc main_v51) = val_main_v47 (F := Ideal) (x0 m c) (x1 m c) (x3 m c) (x4 m c) (x5 m c) := by
  show W6 m ρ c (Proc.devRef .tc (Pipeline.arrRef spec1 2)) = _
  rw [W6_arr, Cert.KernelIdeal.Rows.result1]
  unfold Cert.KernelIdeal.Rows.whole1
  rw [second_left, second_right]
  rfl

/-! ## After the second region -/

/-- The second call of the clamp at zero, read back over any buffer contents. -/
theorem clamp_second (U : Valuation τ sig (Elt Ideal)) :
    (StableHlo.after hostOps2_1 U (Proc.devRef .tc main_v68) : FVec Ideal S100000x64 .f32)
      = maximumf (F := Ideal) (U (Proc.devRef .tc main_v67) : FVec Ideal S100000x64 .f32)
          (broadcastInDim S100000x64 ![] bcast_S_S100000x64 (constant (F := Ideal) S_ .f32 0x00000000#32)) := by
  simp only [hostOps2_1]
  after_results_simp
  rfl

/-- The second layer before the clamp: the second product's rows gathered along the edges, weighted, scatter-added into the
    target nodes, and the bias added. -/
theorem second_sum (c : Dev nD) :
    W7 m ρ c (Proc.devRef .tc main_v67)
      = val_main_v63 (F := Ideal) (x0 m c) (x1 m c) (x3 m c) (x4 m c) (x5 m c) (x6 m c) := by
  show StableHlo.after hostOps2 (W6 m ρ c) (Proc.devRef .tc main_v67) = _
  simp only [hostOps2]
  after_results_simp
  obtain ⟨k3, k6, k28, k2, ka6, ka7, ka8⟩ := carried m ρ c
  rw [second_product m ρ c, W6_of_ne m ρ c main_v3 (by decide), W6_of_ne m ρ c main_v6 (by decide), W6_of_ne m ρ c main_v28 (by decide),
    W6_of_ne m ρ c main_arg6 (by decide), k3, k6, k28, ka6]
  rfl

/-- The second layer's output: that sum clamped at zero. -/
theorem second_layer (c : Dev nD) :
    W8 m ρ c (Proc.devRef .tc main_v68)
      = val_main_v64 (F := Ideal) (x0 m c) (x1 m c) (x3 m c) (x4 m c) (x5 m c) (x6 m c) := by
  show StableHlo.after hostOps2_1 (W7 m ρ c) (Proc.devRef .tc main_v68) = _
  rw [clamp_second, second_sum]
  rfl

/-- The arguments the last stretch reads are still as launched when it starts. -/
theorem late_arguments (c : Dev nD) :
    W8 m ρ c (Proc.devRef .tc main_arg2) = x2 m c ∧ W8 m ρ c (Proc.devRef .tc main_arg7) = x7 m c
    ∧ W8 m ρ c (Proc.devRef .tc main_arg8) = x8 m c := by
  obtain ⟨k3, k6, k28, k2, ka6, ka7, ka8⟩ := carried m ρ c
  refine ⟨?_, ?_, ?_⟩
  · show StableHlo.after hostOps2_1 (StableHlo.after hostOps2 (W6 m ρ c)) _ = _
    simp only [hostOps2_1, hostOps2]
    after_results_simp
    exact (W6_of_ne m ρ c main_arg2 (by decide)).trans k2
  · show StableHlo.after hostOps2_1 (StableHlo.after hostOps2 (W6 m ρ c)) _ = _
    simp only [hostOps2_1, hostOps2]
    after_results_simp
    exact (W6_of_ne m ρ c main_arg7 (by decide)).trans ka7
  · show StableHlo.after hostOps2_1 (StableHlo.after hostOps2 (W6 m ρ c)) _ = _
    simp only [hostOps2_1, hostOps2]
    after_results_simp
    exact (W6_of_ne m ρ c main_arg8 (by decide)).trans ka8

/-- THE RESULT: the second layer's output averaged over each graph and passed through the linear layer. -/
theorem result (c : Dev nD) :
    W9 m ρ c (Proc.devRef .tc main_v85)
      = val_main_v81 (F := Ideal) (x0 m c) (x1 m c) (x2 m c) (x3 m c) (x4 m c) (x5 m c) (x6 m c) (x7 m c) (x8 m c) := by
  obtain ⟨a2, a7, a8⟩ := late_arguments m ρ c
  have a68 := second_layer m ρ c
  show StableHlo.after hostOps2_2 (W8 m ρ c) (Proc.devRef .tc main_v85) = _
  -- the last stretch is read back over the contents it starts from, whatever they are
  generalize W8 m ρ c = U at a2 a7 a8 a68 ⊢
  simp only [hostOps2_2]
  after_results_simp
  rw [a68, a2, a7, a8]
  rfl

end Cert.KernelIdeal.Stages

end
-- ==== Proof.lean ====
/-
  The certificate of a two-layer graph convolution with mean pooling and a linear head, whose two dense transforms
  `h · W` run as row-tiled matrix products on the chip, against the same network with the host's `dot_general`.

  At the ideal values the only difference between the two programs is how the two products are computed: the kernel
  program casts both operands to a narrower float format (the identity on extended reals) and multiplies ten blocks of
  10000 rows each into a zero accumulator; the reference multiplies the whole arrays. An entry of a product depends on one
  row of the left operand only, so the blocks are the rows of the whole product, and everything around the products —
  degrees, edge weights, gathers, scatter-adds, biases, clamps, the pooled mean and the linear layer — is the same chain
  of host operations on both sides. No law of arithmetic beyond reading both products as the same sum is used, so the
  precondition (finite inputs) is never opened.

  The frames of the two kernel programs are the generated ones; the reference's frame is its generated run with the result
  dropped; the idealization rewrote nothing, so nothing is owed for it.
-/
import proofs.«167416_j76630806496038_1_alg».proof.Defs
import proofs.«167416_j76630806496038_1_alg».proof.Proof.Gen.Kernel
import proofs.«167416_j76630806496038_1_alg».proof.Proof.Gen.Kernel.Skeleton
import proofs.«167416_j76630806496038_1_alg».proof.Proof.Gen.Kernel.Launch
import proofs.«167416_j76630806496038_1_alg».proof.Proof.Gen.Kernel.Points
import proofs.«167416_j76630806496038_1_alg».proof.Proof.Gen.Kernel.Frame
import proofs.«167416_j76630806496038_1_alg».proof.Proof.Gen.KernelIdeal
import proofs.«167416_j76630806496038_1_alg».proof.Proof.Gen.KernelIdeal.Skeleton
import proofs.«167416_j76630806496038_1_alg».proof.Proof.Gen.KernelIdeal.Launch
import proofs.«167416_j76630806496038_1_alg».proof.Proof.Gen.KernelIdeal.Points
import proofs.«167416_j76630806496038_1_alg».proof.Proof.Gen.KernelIdeal.Frame
import proofs.«167416_j76630806496038_1_alg».proof.Proof.Gen.ReferenceIdeal
import proofs.«167416_j76630806496038_1_alg».proof.Proof.Gen.ReferenceIdeal.Run
import proofs.«167416_j76630806496038_1_alg».proof.Proof.Gen.ReferenceIdeal.Read
import proofs.«167416_j76630806496038_1_alg».proof.Proof.Gen.Pre_finite_inputs
import proofs.«167416_j76630806496038_1_alg».proof.Proof.KernelRun
import proofs.«167416_j76630806496038_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage function of the arguments: the kernel program by reading its
    stretches and regions back stage by stage, the reference by its run; the arguments agree. -/
theorem algebraic : Cert.algebraic_KernelIdeal_ReferenceIdeal := by
  intro m ρ m' ρ' _ hagree
  refine ⟨fun c => Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Stages.result m ρ c), (h c).2⟩)
      (Cert.KernelIdeal.RunOut.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v81_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
